-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S100000x2 : Shape := ⟨2, ![100000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256x2 .f32) (main_arg10 : FVec F S2 .f32) (main_v33 : IVec S_ 1) : IVec S_ 1 :=
  let main_v34 : FVec F S256x2 .f32 := Host.absf main_arg9
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x2 .f32) (main_arg10 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x1600000 32) (main_arg2 : IVec S100000x2 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x2 .f32) (main_arg10 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x1600000 : Shape := ⟨2, ![2, 1600000]⟩
abbrev S100000x2 : Shape := ⟨2, ![100000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S100000x1 : Shape := ⟨2, ![100000, 1]⟩
abbrev S100000 : Shape := ⟨1, ![100000]⟩
abbrev S_ : Shape := ⟨0, ![]⟩
abbrev S100000x256 : Shape := ⟨2, ![100000, 256]⟩
abbrev S1x256 : Shape := ⟨2, ![1, 256]⟩
abbrev S1x2 : Shape := ⟨2, ![1, 2]⟩
abbrev S4000x256 : Shape := ⟨2, ![4000, 256]⟩
abbrev S4000x2 : Shape := ⟨2, ![4000, 2]⟩

abbrev nBuf : Space → Nat
  | .hbm => 40
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S100000x2, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2, .f32⟩
  | .hbm, ⟨10, _⟩ => ⟨S2, .f32⟩
  | .hbm, ⟨11, _⟩ => ⟨S100000x1, .i32⟩
  | .hbm, ⟨12, _⟩ => ⟨S100000, .i32⟩
  | .hbm, ⟨13, _⟩ => ⟨S100000x1, .i32⟩
  | .hbm, ⟨14, _⟩ => ⟨S100000, .i32⟩
  | .hbm, ⟨15, _⟩ => ⟨S_, .i32⟩
  | .hbm, ⟨16, _⟩ => ⟨S100000, .i32⟩
  | .hbm, ⟨17, _⟩ => ⟨S100000, .i1⟩
  | .hbm, ⟨18, _⟩ => ⟨S_, .i32⟩
  | .hbm, ⟨19, _⟩ => ⟨S100000, .i32⟩
  | .hbm, ⟨20, _⟩ => ⟨S100000, .i32⟩
  | .hbm, ⟨21, _⟩ => ⟨S100000, .i32⟩
  | .hbm, ⟨22, _⟩ => ⟨S100000x1, .i32⟩
  | .hbm, ⟨23, _⟩ => ⟨S100000x256, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x256, .f32⟩
  | .hbm, ⟨33, _⟩ => ⟨S100000x256, .f32⟩
  | .hbm, ⟨34, _⟩ => ⟨S100000x256, .bf16⟩
  | .hbm, ⟨35, _⟩ => ⟨S256x256, .bf16⟩
  | .hbm, ⟨36, _⟩ => ⟨S256x2, .bf16⟩
  | .hbm, ⟨37, _⟩ => ⟨S1x256, .f32⟩
  | .hbm, ⟨38, _⟩ => ⟨S1x2, .f32⟩
  | .hbm, ⟨39, _⟩ => ⟨S100000x2, .f32⟩
  | .local _ .vmem, ⟨0, _⟩ => ⟨S4000x256, .bf16⟩
  | .local _ .vmem, ⟨1, _⟩ => ⟨S4000x256, .bf16⟩
  | .local _ .vmem, ⟨2, _⟩ => ⟨S256x256, .bf16⟩
  | .local _ .vmem, ⟨3, _⟩ => ⟨S1x256, .f32⟩
  | .local _ .vmem, ⟨4, _⟩ => ⟨S256x2, .bf16⟩
  | .local _ .vmem, ⟨5, _⟩ => ⟨S1x2, .f32⟩
  | .local _ .vmem, ⟨6, _⟩ => ⟨S4000x2, .f32⟩
  | .local _ .vmem, ⟨7, _⟩ => ⟨S4000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  shapeCasts_S256_S1x256 : S256.ShapeCasts S1x256
  shapeCasts_S2_S1x2 : S2.ShapeCasts S1x2
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  gather_S50000x256_S100000x1_S100000x256_1_0_n_n_0_1_1256_wf : GatherDims.WF S50000x256 S100000x1 S100000x256 [1] [0] [] [0] [] 1 ![1, 256]
  dot_S4000x256_S256x256_S4000x256_1_0_0_1_n_n_wf : DotDims.WF S4000x256 S256x256 S4000x256 [1] [0] [0] [1] [] []
  dot_S4000x256_S256x2_S4000x2_1_0_0_1_n_n_wf : DotDims.WF S4000x256 S256x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .bf16 = 32 ∨ (Rect.block (s := S100000x256) S4000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .bf16 = 32 ∨ (Rect.block (s := S256x2) S256x2.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x2.size a ≤ S100000x2.size a
  hwx0_5 : ∀ i : grid0.Coords, EltTy.bits .f32 = 32 ∨ (Rect.block (s := S100000x2) S4000x2.size (cc0_transform_5 i) (hinb0_5 i)).WholeWords (EltTy.packing .f32)

variable [Facts₀]

def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x2_S4000x2_1_0_0_1_n_n : DotDims S4000x256 S256x2 S4000x2 where
  lhsContracting := [1]
  rhsContracting := [0]
  lhsNonContracting := [0]
  rhsNonContracting := [1]
  lhsBatch := []
  rhsBatch := []
  wf := dot_S4000x256_S256x2_S4000x2_1_0_0_1_n_n_wf

abbrev win0_0 : Pipeline.Window sig grid0 :=
  Pipeline.Window.ofSpec (Memref.whole main_v19) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S100000x2 : Shape := ⟨2, ![100000, 2]⟩
abbrev S256x256 : Shape := ⟨2, ![256, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x256 : Shape := ⟨2, ![1600000, 256]⟩
abbrev S1x256 : Shape := ⟨2, ![1, 256]⟩
abbrev S100000x1 : Shape := ⟨2, ![100000, 1]⟩
abbrev S100000 : Shape := ⟨1, ![100000]⟩
abbrev S100000x256 : Shape := ⟨2, ![100000, 256]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S100000x2, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x256, .f32⟩
  | .hbm, ⟨24, _⟩ => ⟨S_, .f32⟩
  | .hbm, ⟨25, _⟩ => ⟨S50000x256, .f32⟩
  | .hbm, ⟨26, _⟩ => ⟨S1600000x1, .i32⟩
  | .hbm, ⟨27, _⟩ => ⟨S50000x256, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x256, .f32⟩
  | .hbm, ⟨44, _⟩ => ⟨S_, .f32⟩
  | .hbm, ⟨45, _⟩ => ⟨S50000x256, .f32⟩
  | .hbm, ⟨46, _⟩ => ⟨S1600000x1, .i32⟩
  | .hbm, ⟨47, _⟩ => ⟨S50000x256, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000x256, .f32⟩
  | .hbm, ⟨54, _⟩ => ⟨S50000x256, .f32⟩
  | .hbm, ⟨55, _⟩ => ⟨S100000x1, .i32⟩
  | .hbm, ⟨56, _⟩ => ⟨S100000, .i32⟩
  | .hbm, ⟨57, _⟩ => ⟨S_, .i32⟩
  | .hbm, ⟨58, _⟩ => ⟨S100000, .i32⟩
  | .hbm, ⟨59, _⟩ => ⟨S100000, .i1⟩
  | .hbm, ⟨60, _⟩ => ⟨S_, .i32⟩
  | .hbm, ⟨61, _⟩ => ⟨S100000, .i32⟩
  | .hbm, ⟨62, _⟩ => ⟨S100000, .i32⟩
  | .hbm, ⟨63, _⟩ => ⟨S100000, .i32⟩
  | .hbm, ⟨64, _⟩ => ⟨S100000x1, .i32⟩
  | .hbm, ⟨65, _⟩ => ⟨S100000x256, .f32⟩
  | .hbm, ⟨66, _⟩ => ⟨S100000x1, .i32⟩
  | .hbm, ⟨67, _⟩ => ⟨S100000, .i32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S_, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000x1, .i32⟩
  | .hbm, ⟨76, _⟩ => ⟨S100000x256, .f32⟩
  | .hbm, ⟨77, _⟩ => ⟨S100000x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S_, .f32⟩
  | .hbm, ⟨83, _⟩ => ⟨S100000x256, .f32⟩
  | .hbm, ⟨84, _⟩ => ⟨S100000x256, .f32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call2_cst : Ref sig .tc := ⟨.hbm, 82, rfl⟩
abbrev main_call2_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S50000x256_S1600000x1_S1600000x256_1_0_n_n_0_1_1256_wf : GatherDims.WF S50000x256 S1600000x1 S1600000x256 [1] [0] [] [0] [] 1 ![1, 256]
  scatter_S50000x256_S1600000x1_S1600000x256_1_0_0_1_wf : ScatterDims.WF S50000x256 S1600000x1 S1600000x256 [1] [0] [0] 1
  dot_S50000x256_S256x256_S50000x256_1_0_0_1_n_n_wf : DotDims.WF S50000x256 S256x256 S50000x256 [1] [0] [0] [1] [] []
  gather_S50000x256_S100000x1_S100000x256_1_0_n_n_0_1_1256_wf : GatherDims.WF S50000x256 S100000x1 S100000x256 [1] [0] [] [0] [] 1 ![1, 256]
  dot_S100000x256_S256x256_S100000x256_1_0_0_1_n_n_wf : DotDims.WF S100000x256 S256x256 S100000x256 [1] [0] [0] [1] [] []
  dot_S100000x256_S256x2_S100000x2_1_0_0_1_n_n_wf : DotDims.WF S100000x256 S256x2 S100000x2 [1] [0] [0] [1] [] []

variable [Facts₀]

def gather_S50000x256_S1600000x1_S1600000x256_1_0_n_n_0_1_1256 : GatherDims S50000x256 S1600000x1 S1600000x256 where
  offsetDims := [1]
  collapsedSliceDims := [0]
  operandBatchingDims := []
  startIndicesBatchingDims := []
  startIndexMap := [0]
  indexVectorDim := 1
  sliceSizes := ![1, 256]
  wf := gather_S50000x256_S1600000x1_S1600000x256_1_0_n_n_0_1_1256_wf
def scatter_S50000x256_S1600000x1_S1600000x256_1_0_0_1 : ScatterDims S50000x256 S1600000x1 S1600000x256 where
  updateWindowDims := [1]
  insertedWindowDims := [0]
  scatterDimsToOperandDims := [0]
  indexVectorDim := 1
  wf := scatter_S50000x256_S1600000x1_S1600000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.MlpSpec.lean ====
/-
  The function both programs compute, read on the extended reals.

  Every sample row `s` carries a vector `z s : Fin 256 → EReal` (the entrywise product of two gathered feature rows).
  The network on one row is
      hidden k = max (∑ j, z j * W1 (j, k) + b1 k) 0          (a linear layer and a rectifier)
      out o    = ∑ k, hidden k * W2 (k, o) + b2 o             (a second linear layer),
  and the result array holds `out` of row `s` at `(s, o)`. A row of the result depends on that row of `z` alone, so
  computing the rows in blocks of any height gives the same array: that is all the tiling of the kernel uses. No law
  of the extended reals beyond re-indexing a finite sum is needed, so nothing here asks the entries to be finite.
-/
import Idealize.ShloMosaic.PureOps.Ideal
import Idealize.ShloMosaic.Lib.ValueIdx

noncomputable section

namespace Cert.Mlp

open Idealize.ShloMosaic Idealize.ShloMosaic.ValueIdx

/-- A square weight matrix's index type and the output weight matrix's. -/
abbrev Sq : Shape := ⟨2, ![256, 256]⟩
abbrev Wo : Shape := ⟨2, ![256, 2]⟩

/-- Hidden unit `k` of one row: the rectified affine form `max (∑ j, z j * W1 (j, k) + b1 k) 0`. -/
def hiddenRow (zr : Fin 256 → EReal) (W1 : Sq.Idx → EReal) (b1 : Fin 256 → EReal) (k : Fin 256) : EReal :=
  max ((∑ j : Fin 256, zr j * W1 (ix2 j k)) + b1 k) 0

/-- Output `o` of one row: `∑ k, hidden k * W2 (k, o) + b2 o`. -/
def outRow (zr : Fin 256 → EReal) (W1 : Sq.Idx → EReal) (b1 : Fin 256 → EReal) (W2 : Wo.Idx → EReal) (b2 : Fin 2 → EReal)
    (o : Fin 2) : EReal :=
  (∑ k : Fin 256, hiddenRow zr W1 b1 k * W2 (ix2 k o)) + b2 o

/-- The whole result: entry `(s, o)` is output `o` of row `s` of `z`. -/
def mlp (z : (⟨2, ![100000, 256]⟩ : Shape).Idx → EReal) (W1 : Sq.Idx → EReal) (b1 : (⟨1, ![256]⟩ : Shape).Idx → EReal)
    (W2 : Wo.Idx → EReal) (b2 : (⟨1, ![2]⟩ : Shape).Idx → EReal) : (⟨2, ![100000, 2]⟩ : Shape).Idx → EReal :=
  fun i => outRow (fun j => z (ix2 (i 0) j)) W1 (fun k => b1 (ix1 k)) W2 (fun o => b2 (ix1 o)) (i 1)

/-- The result at the entry with coordinates `(s, o)`. -/
theorem mlp_apply (z : (⟨2, ![100000, 256]⟩ : Shape).Idx → EReal) (W1 : Sq.Idx → EReal) (b1 : (⟨1, ![256]⟩ : Shape).Idx → EReal)
    (W2 : Wo.Idx → EReal) (b2 : (⟨1, ![2]⟩ : Shape).Idx → EReal) (s : Fin 100000) (o : Fin 2) :
    mlp z W1 b1 W2 b2 (ix2 s o) = outRow (fun j => z (ix2 s j)) W1 (fun k => b1 (ix1 k)) W2 (fun o => b2 (ix1 o)) o := rfl

/-- The same network with each bias given as a one-row matrix (`1 × 256` and `1 × 2`), which is how a row-blocked
    computation carries them. -/
def mlpRowBias (z : (⟨2, ![100000, 256]⟩ : Shape).Idx → EReal) (W1 : Sq.Idx → EReal) (b1 : (⟨2, ![1, 256]⟩ : Shape).Idx → EReal)
    (W2 : Wo.Idx → EReal) (b2 : (⟨2, ![1, 2]⟩ : Shape).Idx → EReal) : (⟨2, ![100000, 2]⟩ : Shape).Idx → EReal :=
  fun i => outRow (fun j => z (ix2 (i 0) j)) W1 (fun k => b1 (ix2 (0 : Fin 1) k)) W2 (fun c => b2 (ix2 (0 : Fin 1) c)) (i 1)

theorem mlpRowBias_apply (z : (⟨2, ![100000, 256]⟩ : Shape).Idx → EReal) (W1 : Sq.Idx → EReal) (b1 : (⟨2, ![1, 256]⟩ : Shape).Idx → EReal)
    (W2 : Wo.Idx → EReal) (b2 : (⟨2, ![1, 2]⟩ : Shape).Idx → EReal) (s : Fin 100000) (o : Fin 2) :
    mlpRowBias z W1 b1 W2 b2 (ix2 s o)
      = outRow (fun j => z (ix2 s j)) W1 (fun k => b1 (ix2 (0 : Fin 1) k)) W2 (fun c => b2 (ix2 (0 : Fin 1) c)) o := rfl

end Cert.Mlp

end
-- ==== Proof.RefIsMlp.lean ====
/-
  The reference's result, read one stage at a time, is the network `Cert.Mlp.mlp` of the product array
  `z = x[samples[:, 0]] * x[samples[:, 1]]` (stage 52 of the reference) and the four parameter arrays: its two
  `dot_general`s are the two sums over the 256 hidden or input units, its biases are broadcast along the rows, and its
  rectifier is the maximum with a zero array. The two message-passing layers the reference computes first feed nothing
  the result reads.
-/
import proofs.«422213_j81973745811781_2_alg».proof.Proof.Gen.ReferenceIdeal.Read
import proofs.«422213_j81973745811781_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx

/-- The operand indices of the second product at output entry `i` and hidden unit `k`: `(row, k)` and `(k, column)`. -/
theorem lidx58 (s : Fin 100000) (o : Fin 2) (k : Fin 256) : lidx_main_v58 (ix2 s o) k = ix2 s k :=
  funext fun a => Fin.ext (by match a with | ⟨0, _⟩ => rfl | ⟨1, _⟩ => rfl)
theorem ridx58 (s : Fin 100000) (o : Fin 2) (k : Fin 256) : ridx_main_v58 (ix2 s o) k = ix2 k o :=
  funext fun a => Fin.ext (by match a with | ⟨0, _⟩ => rfl | ⟨1, _⟩ => rfl)
/-- The operand indices of the first product at hidden entry `(s, k)` and input unit `j`: `(s, j)` and `(j, k)`. -/
theorem lidx53 (s : Fin 100000) (k j : Fin 256) : lidx_main_v53 (ix2 s k) j = ix2 s j :=
  funext fun a => Fin.ext (by match a with | ⟨0, _⟩ => rfl | ⟨1, _⟩ => rfl)
theorem ridx53 (s : Fin 100000) (k j : Fin 256) : ridx_main_v53 (ix2 s k) j = ix2 j k :=
  funext fun a => Fin.ext (by match a with | ⟨0, _⟩ => rfl | ⟨1, _⟩ => rfl)
/-- A bias broadcast along the rows is read at the entry's column. -/
theorem bias1 (s : Fin 100000) (k : Fin 256) : idx_main_v54 (idx_main_v55 (ix2 s k)) = ix1 k :=
  funext fun a => Fin.ext (by match a with | ⟨0, _⟩ => rfl)
theorem bias2 (s : Fin 100000) (o : Fin 2) : idx_main_v59 (idx_main_v60 (ix2 s o)) = ix1 o :=
  funext fun a => Fin.ext (by match a with | ⟨0, _⟩ => rfl)

/-- The reference's last stage is the network of its product stage and the parameters. -/
theorem result_eq (x0 : (⟨S50000x256, .f32⟩ : BufTy).Contents (Elt Ideal)) (x2 : (⟨S100000x2, .i32⟩ : BufTy).Contents (Elt Ideal))
    (x7 : (⟨S256x256, .f32⟩ : BufTy).Contents (Elt Ideal)) (x8 : (⟨S256, .f32⟩ : BufTy).Contents (Elt Ideal))
    (x9 : (⟨S256x2, .f32⟩ : BufTy).Contents (Elt Ideal)) (x10 : (⟨S2, .f32⟩ : BufTy).Contents (Elt Ideal)) :
    val_main_v61 (F := Ideal) x0 x2 x7 x8 x9 x10 = Cert.Mlp.mlp (val_main_v52 (F := Ideal) x0 x2) x7 x8 x9 x10 := by
  funext i
  obtain ⟨s, o, rfl⟩ : ∃ (s : Fin 100000) (o : Fin 2), i = ix2 s o := ⟨i 0, i 1, eq_ix2 i⟩
  rw [val_main_v61_apply, val_main_v58_apply, val_main_v60_apply, val_main_v59_apply, bias2, Cert.Mlp.mlp_apply]
  unfold Cert.Mlp.outRow
  refine congrArg (· + x10 (ix1 o)) (Finset.sum_congr rfl fun k _ => ?_)
  rw [ridx58, lidx58, val_main_v57_apply, val_main_v56_apply, val_main_v53_apply, val_main_v55_apply, val_main_v54_apply, bias1,
    val_main_call2_v0_apply, val_main_call2_cst_apply]
  unfold Cert.Mlp.hiddenRow
  simp only [lidx53, ridx53]
  show max (_ + _) (Ideal.ofBits .f32 0x00000000#32) * _ = _
  rw [Ideal.ofBits_zero_f32]

end Cert.ReferenceIdeal.RefValue

end
-- ==== Proof.KernelBlock.lean ====
/-
  What the kernel body stores at one grid point, read at an entry. The body takes a block of 4000 rows of the product
  array, the two weight matrices and the two bias rows, and stores, at row `p` and column `o` of the block,
      ∑ k, max (∑ j, z (p, j) * W1 (j, k) + b1 (0, k)) 0 * W2 (k, o) + b2 (0, o):
  the network's output `o` of the block's row `p` (`Cert.Mlp.outRow`). Its two matrix products accumulate into a zero
  array, so each is the plain sum over the 256 contracted units; its changes of float format are the identity on the
  extended reals; its rectifier is the maximum with a zero splat.
-/
import proofs.«422213_j81973745811781_2_alg».proof.Proof.Gen.KernelIdeal.Skeleton
import proofs.«422213_j81973745811781_2_alg».proof.Proof.MlpSpec
import Idealize.ShloMosaic.PureOps.Ideal.Laws
import Idealize.ShloMosaic.Lib.ValueIdx
import Idealize.ShloMosaic.Lib.Pipeline.Value

noncomputable section

namespace Cert.KernelIdeal.MlpBlock

open Cert.KernelIdeal Cert.KernelIdeal.Gen Idealize.ShloMosaic Idealize.ShloMosaic.ValueIdx

/-! ## The two matrix products at an entry -/

theorem lhs1_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs1_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
theorem rhs1_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
theorem rhs1_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

theorem lhs2_0 (i : S4000x2.Idx) (q : dot_S4000x256_S256x2_S4000x2_1_0_0_1_n_n.contr.Idx) :
    (dot_S4000x256_S256x2_S4000x2_1_0_0_1_n_n.lhsIdx i q 0).val = (i 0).val := by
  unfold DotDims.lhsIdx
  rw [dif_neg (show ¬(0 : Fin S4000x256.rank) ∈ dot_S4000x256_S256x2_S4000x2_1_0_0_1_n_n.lhsBatch by decide), dif_pos (show (0 : Fin S4000x256.rank) ∈ dot_S4000x256_S256x2_S4000x2_1_0_0_1_n_n.lhsNonContracting by decide)]
  rfl
theorem lhs2_1 (i : S4000x2.Idx) (q : dot_S4000x256_S256x2_S4000x2_1_0_0_1_n_n.contr.Idx) :
    (dot_S4000x256_S256x2_S4000x2_1_0_0_1_n_n.lhsIdx i q 1).val = (q ⟨0, by decide⟩).val :=
  dot_S4000x256_S256x2_S4000x2_1_0_0_1_n_n.lhsIdx_val_of_single rfl i q
theorem rhs2_0 (i : S4000x2.Idx) (q : dot_S4000x256_S256x2_S4000x2_1_0_0_1_n_n.contr.Idx) :
    (dot_S4000x256_S256x2_S4000x2_1_0_0_1_n_n.rhsIdx i q 0).val = (q ⟨0, by decide⟩).val :=
  dot_S4000x256_S256x2_S4000x2_1_0_0_1_n_n.rhsIdx_val_of_single rfl i q
theorem rhs2_1 (i : S4000x2.Idx) (q : dot_S4000x256_S256x2_S4000x2_1_0_0_1_n_n.contr.Idx) :
    (dot_S4000x256_S256x2_S4000x2_1_0_0_1_n_n.rhsIdx i q 1).val = (i 1).val := by
  unfold DotDims.rhsIdx
  rw [dif_neg (show ¬(1 : Fin S256x2.rank) ∈ dot_S4000x256_S256x2_S4000x2_1_0_0_1_n_n.rhsBatch by decide), dif_pos (show (1 : Fin S256x2.rank) ∈ dot_S4000x256_S256x2_S4000x2_1_0_0_1_n_n.rhsNonContracting by decide)]
  rfl

/-- The first product into a zero array, at `(p, c)`: the sum over the input units. -/
theorem matmul1_apply (a : FVec Ideal S4000x256 .bf16) (b : FVec Ideal S256x256 .bf16) (p : Fin 4000) (c : Fin 256) :
    matmul dot_S4000x256_S256x256_S4000x256_1_0_0_1_n_n none a b (constant S4000x256 .f32 0x00000000#32) (ix2 p c) = ∑ j : Fin 256, a (ix2 p j) * b (ix2 j c) := by
  simp only [matmul]
  rw [Ideal.matmul_constant_zero_apply, ← Equiv.sum_comp (contrEquiv1 dot_S4000x256_S256x256_S4000x256_1_0_0_1_n_n 256 rfl rfl).symm]
  refine Finset.sum_congr rfl fun j _ => ?_
  have hj := contrEquiv1_symm_val dot_S4000x256_S256x256_S4000x256_1_0_0_1_n_n 256 rfl rfl j
  have el : dot_S4000x256_S256x256_S4000x256_1_0_0_1_n_n.lhsIdx (ix2 p c) ((contrEquiv1 dot_S4000x256_S256x256_S4000x256_1_0_0_1_n_n 256 rfl rfl).symm j) = ix2 p j := funext fun a => Fin.ext (by
    match a with
    | ⟨0, _⟩ => exact lhs1_0 _ _
    | ⟨1, _⟩ => exact (lhs1_1 _ _).trans hj)
  have er : dot_S4000x256_S256x256_S4000x256_1_0_0_1_n_n.rhsIdx (ix2 p c) ((contrEquiv1 dot_S4000x256_S256x256_S4000x256_1_0_0_1_n_n 256 rfl rfl).symm j) = ix2 j c := funext fun a => Fin.ext (by
    match a with
    | ⟨0, _⟩ => exact (rhs1_0 _ _).trans hj
    | ⟨1, _⟩ => exact rhs1_1 _ _)
  rw [el, er]

/-- The second product into a zero array, at `(p, c)`: the sum over the hidden units. -/
theorem matmul2_apply (a : FVec Ideal S4000x256 .bf16) (b : FVec Ideal S256x2 .bf16) (p : Fin 4000) (c : Fin 2) :
    matmul dot_S4000x256_S256x2_S4000x2_1_0_0_1_n_n none a b (constant S4000x2 .f32 0x00000000#32) (ix2 p c) = ∑ j : Fin 256, a (ix2 p j) * b (ix2 j c) := by
  simp only [matmul]
  rw [Ideal.matmul_constant_zero_apply, ← Equiv.sum_comp (contrEquiv1 dot_S4000x256_S256x2_S4000x2_1_0_0_1_n_n 256 rfl rfl).symm]
  refine Finset.sum_congr rfl fun j _ => ?_
  have hj := contrEquiv1_symm_val dot_S4000x256_S256x2_S4000x2_1_0_0_1_n_n 256 rfl rfl j
  have el : dot_S4000x256_S256x2_S4000x2_1_0_0_1_n_n.lhsIdx (ix2 p c) ((contrEquiv1 dot_S4000x256_S256x2_S4000x2_1_0_0_1_n_n 256 rfl rfl).symm j) = ix2 p j := funext fun a => Fin.ext (by
    match a with
    | ⟨0, _⟩ => exact lhs2_0 _ _
    | ⟨1, _⟩ => exact (lhs2_1 _ _).trans hj)
  have er : dot_S4000x256_S256x2_S4000x2_1_0_0_1_n_n.rhsIdx (ix2 p c) ((contrEquiv1 dot_S4000x256_S256x2_S4000x2_1_0_0_1_n_n 256 rfl rfl).symm j) = ix2 j c := funext fun a => Fin.ext (by
    match a with
    | ⟨0, _⟩ => exact (rhs2_0 _ _).trans hj
    | ⟨1, _⟩ => exact rhs2_1 _ _)
  rw [el, er]

/-! ## The stored value at an entry -/

/-- The body's one stored value at `(p, o)` is the network's output `o` of row `p` of its input block. -/
theorem pay_apply (x0 : Vec Ideal S4000x256 .bf16) (x1 : Vec Ideal S256x256 .bf16) (x2 : Vec Ideal S1x256 .f32)
    (x3 : Vec Ideal S256x2 .bf16) (x4 : Vec Ideal S1x2 .f32) (p : Fin 4000) (o : Fin 2) :
    k0_pay1 (F := Ideal) x0 x1 x2 x3 x4 (ix2 p o)
      = Cert.Mlp.outRow (fun j => x0 (ix2 p j)) x1 (fun k => x2 (ix2 (0 : Fin 1) k)) x3 (fun c => x4 (ix2 (0 : Fin 1) c)) o := by
  unfold k0_pay1
  simp only [shapeCast_self]
  rw [addf_apply, matmul2_apply, broadcastTo_apply x4 broadcasts_S1x2_S4000x2 (ix2 p o) (ix2 (0 : Fin 1) o) (fun a => by
    match a with
    | ⟨0, _⟩ => show 0 = if (1 : Nat) = 1 then 0 else p.val; rw [if_pos rfl]
    | ⟨1, _⟩ => show o.val = if (2 : Nat) = 1 then 0 else o.val; rw [if_neg (by decide)])]
  unfold Cert.Mlp.outRow
  refine congrArg (· + x4 (ix2 (0 : Fin 1) o)) (Finset.sum_congr rfl fun k _ => ?_)
  rw [truncf_apply, maximumf_apply, addf_apply, matmul1_apply, broadcastTo_apply x2 broadcasts_S1x256_S4000x256 (ix2 p k) (ix2 (0 : Fin 1) k) (fun a => by
    match a with
    | ⟨0, _⟩ => show 0 = if (1 : Nat) = 1 then 0 else p.val; rw [if_pos rfl]
    | ⟨1, _⟩ => show k.val = if (256 : Nat) = 1 then 0 else k.val; rw [if_neg (by decide)]), broadcast_apply]
  unfold Cert.Mlp.hiddenRow
  show max (_ + _) (Ideal.ofBits .f32 0x00000000#32) * _ = _
  rw [Ideal.ofBits_zero_f32]

end Cert.KernelIdeal.MlpBlock

end
-- ==== Proof.KernelPrefix.lean ====
/-
  The five arrays the region stages, as the host operations before it leave them, in terms of the argument arrays:
  the product array `z = x[samples[:, 0]] * x[samples[:, 1]]` re-typed to the narrower float format (each sample index
  wrapped once by the table's height, 50000, when negative, then a row gather of the feature table), the two weight
  matrices re-typed, and each bias reshaped to a one-row matrix. Stated for any float instance: the operations are
  only named here, never evaluated.
-/
import proofs.«422213_j81973745811781_2_alg».proof.Proof.Gen.KernelIdeal.Frame
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.MlpPrefix

open Cert.KernelIdeal Cert.KernelIdeal.Gen

variable {F : FTy → Type} [FloatOps F]
variable (m : (ℓ : Loc nD τ sig) → Buf (Elt F) ℓ)

/-- The product array: the feature rows at the first sample column times the feature rows at the second. -/
def pairProd (x : FVec F S50000x256 .f32) (s : IVec S100000x2 32) : FVec F S100000x256 .f32 :=
  mulf (Host.gather gather_S50000x256_S100000x1_S100000x256_1_0_n_n_0_1_1256 x (broadcastInDim S100000x1 ![0] bcast_S100000_S100000x1_0 (select (cmpi .slt (shapeCast _ (extractStridedSlice S100000x1 ![0, 0] s slices_S100000x2_S100000x1_0_0) shapeCasts_S100000x1_S100000) (broadcastInDim S100000 ![] bcast_S_S100000 (constantI S_ 32 0#32))) (addi (shapeCast _ (extractStridedSlice S100000x1 ![0, 0] s slices_S100000x2_S100000x1_0_0) shapeCasts_S100000x1_S100000) (broadcastInDim S100000 ![] bcast_S_S100000 (constantI S_ 32 50000#32))) (shapeCast _ (extractStridedSlice S100000x1 ![0, 0] s slices_S100000x2_S100000x1_0_0) shapeCasts_S100000x1_S100000))))
    (Host.gather gather_S50000x256_S100000x1_S100000x256_1_0_n_n_0_1_1256 x (broadcastInDim S100000x1 ![0] bcast_S100000_S100000x1_0 (select (cmpi .slt (shapeCast _ (extractStridedSlice S100000x1 ![0, 1] s slices_S100000x2_S100000x1_0_1) shapeCasts_S100000x1_S100000) (broadcastInDim S100000 ![] bcast_S_S100000 (constantI S_ 32 0#32))) (addi (shapeCast _ (extractStridedSlice S100000x1 ![0, 1] s slices_S100000x2_S100000x1_0_1) shapeCasts_S100000x1_S100000) (broadcastInDim S100000 ![] bcast_S_S100000 (constantI S_ 32 50000#32))) (shapeCast _ (extractStridedSlice S100000x1 ![0, 1] s slices_S100000x2_S100000x1_0_1) shapeCasts_S100000x1_S100000))))

set_option maxHeartbeats 2000000 in
theorem V19 (c : Dev nD) : (V m c main_v19 : Vec F S100000x256 .bf16)
    = truncf .bf16 (pairProd (m ((c : Thread nD τ).loc main_arg0)) (m ((c : Thread nD τ).loc main_arg2))) bitsLt_bf16_f32 := by
  show StableHlo.after hostOps0 (fun b => m (c, b)) (Proc.devRef .tc main_v19) = _
  after_results_simp <;> rfl

set_option maxHeartbeats 2000000 in
theorem V20 (c : Dev nD) : (V m c main_v20 : Vec F S256x256 .bf16)
    = truncf .bf16 (m ((c : Thread nD τ).loc main_arg7)) bitsLt_bf16_f32 := by
  show StableHlo.after hostOps0 (fun b => m (c, b)) (Proc.devRef .tc main_v20) = _
  after_results_simp <;> rfl

set_option maxHeartbeats 2000000 in
theorem V21 (c : Dev nD) : (V m c main_v21 : Vec F S256x2 .bf16)
    = truncf .bf16 (m ((c : Thread nD τ).loc main_arg9)) bitsLt_bf16_f32 := by
  show StableHlo.after hostOps0 (fun b => m (c, b)) (Proc.devRef .tc main_v21) = _
  after_results_simp <;> rfl

set_option maxHeartbeats 2000000 in
theorem V22 (c : Dev nD) : (V m c main_v22 : Vec F S1x256 .f32)
    = shapeCast S1x256 (m ((c : Thread nD τ).loc main_arg8)) shapeCasts_S256_S1x256 := by
  show StableHlo.after hostOps0 (fun b => m (c, b)) (Proc.devRef .tc main_v22) = _
  after_results_simp <;> rfl

set_option maxHeartbeats 2000000 in
theorem V23 (c : Dev nD) : (V m c main_v23 : Vec F S1x2 .f32)
    = shapeCast S1x2 (m ((c : Thread nD τ).loc main_arg10)) shapeCasts_S2_S1x2 := by
  show StableHlo.after hostOps0 (fun b => m (c, b)) (Proc.devRef .tc main_v23) = _
  after_results_simp <;> rfl

end Cert.KernelIdeal.MlpPrefix

end
-- ==== Proof.KernelValue.lean ====
/-
  The kernel's result array, as one function of the argument arrays.

  Before the region the program forms the product array `z = x[samples[:, 0]] * x[samples[:, 1]]` (two row gathers of the
  feature table at the sample indices, wrapped once when negative, multiplied entrywise), re-types the two weight
  matrices, and reshapes each bias to a one-row matrix. The region then runs over 25 blocks of 4000 rows: at block `t`
  it is handed rows `4000 t … 4000 t + 3999` of `z` and the whole of the other four arrays, and writes rows
  `4000 t … 4000 t + 3999` of the result. Each written row is the network's output of the same row of `z`
  (Proof/KernelBlock.lean), the 25 row blocks tile the 100000 rows, so the result array is the network of `z`.
-/
import proofs.«422213_j81973745811781_2_alg».proof.Proof.Gen.KernelIdeal.Value
import proofs.«422213_j81973745811781_2_alg».proof.Proof.KernelBlock
import proofs.«422213_j81973745811781_2_alg».proof.Proof.KernelPrefix
import proofs.«422213_j81973745811781_2_alg».proof.Proof.MlpSpec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.MlpValue

open Cert.KernelIdeal Cert.KernelIdeal.Gen Cert.KernelIdeal.Value Idealize.ShloMosaic.ValueIdx

variable (m : (ℓ : Loc nD τ sig) → Buf (Elt Ideal) ℓ) (ρ : Dev nD → PrngReg)

/-! ## Where each window's block sits -/

/-- Over the 25 grid points: the product array's window and the result's window are at row block `t`; the other four
    windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The product array's block at point `t` is its rows `4000 t … 4000 t + 3999`. -/
theorem zblk (c : Dev nD) (t : Fin cfg0.N) (p : Fin 4000) (j : Fin 256) (s : Fin 100000) (hs : s.val = 4000 * t.val + p.val) :
    (iblk m c 0 t : Vec Ideal S4000x256 .bf16) (ix2 p j) = (V m c main_v19 : S100000x256.Idx → EReal) (ix2 s j) := by
  obtain ⟨e00, e01, -⟩ := idx_facts t
  unfold iblk
  rw [View.read_apply]
  show V m c main_v19 _ = V m c main_v19 _
  congr 1
  funext a
  apply Fin.ext
  match a with
  | ⟨0, _⟩ => show win0_0.index t 0 * 4000 + 1 * p.val = s.val; rw [e00, hs]; omega
  | ⟨1, _⟩ => show win0_0.index t 1 * 256 + 1 * j.val = j.val; rw [e01]; omega

/-- Each of the other four windows' one block is its whole array. -/
theorem wblk1 (c : Dev nD) (t : Fin cfg0.N) : (iblk m c 1 t : Vec Ideal S256x256 .bf16) = (V m c main_v20 : S256x256.Idx → EReal) := by
  obtain ⟨-, -, e10, e11, e20, e21, e30, e31, e40, e41, -, -⟩ := idx_facts t
  funext x
  unfold iblk
  rw [View.read_apply]
  show V m c main_v20 _ = V m c main_v20 x
  congr 1
  funext a
  apply Fin.ext
  match a with
  | ⟨0, _⟩ => show win0_1.index t 0 * 256 + 1 * (x 0).val = (x 0).val; rw [e10]; omega
  | ⟨1, _⟩ => show win0_1.index t 1 * 256 + 1 * (x 1).val = (x 1).val; rw [e11]; omega

theorem wblk2 (c : Dev nD) (t : Fin cfg0.N) : (iblk m c 2 t : Vec Ideal S1x256 .f32) = (V m c main_v22 : S1x256.Idx → EReal) := by
  obtain ⟨-, -, e10, e11, e20, e21, e30, e31, e40, e41, -, -⟩ := idx_facts t
  funext x
  unfold iblk
  rw [View.read_apply]
  show V m c main_v22 _ = V m c main_v22 x
  congr 1
  funext a
  apply Fin.ext
  match a with
  | ⟨0, _⟩ => show win0_2.index t 0 * 1 + 1 * (x 0).val = (x 0).val; rw [e20]; omega
  | ⟨1, _⟩ => show win0_2.index t 1 * 256 + 1 * (x 1).val = (x 1).val; rw [e21]; omega

theorem wblk3 (c : Dev nD) (t : Fin cfg0.N) : (iblk m c 3 t : Vec Ideal S256x2 .bf16) = (V m c main_v21 : S256x2.Idx → EReal) := by
  obtain ⟨-, -, e10, e11, e20, e21, e30, e31, e40, e41, -, -⟩ := idx_facts t
  funext x
  unfold iblk
  rw [View.read_apply]
  show V m c main_v21 _ = V m c main_v21 x
  congr 1
  funext a
  apply Fin.ext
  match a with
  | ⟨0, _⟩ => show win0_3.index t 0 * 256 + 1 * (x 0).val = (x 0).val; rw [e30]; omega
  | ⟨1, _⟩ => show win0_3.index t 1 * 2 + 1 * (x 1).val = (x 1).val; rw [e31]; omega

theorem wblk4 (c : Dev nD) (t : Fin cfg0.N) : (iblk m c 4 t : Vec Ideal S1x2 .f32) = (V m c main_v23 : S1x2.Idx → EReal) := by
  obtain ⟨-, -, e10, e11, e20, e21, e30, e31, e40, e41, -, -⟩ := idx_facts t
  funext x
  unfold iblk
  rw [View.read_apply]
  show V m c main_v23 _ = V m c main_v23 x
  congr 1
  funext a
  apply Fin.ext
  match a with
  | ⟨0, _⟩ => show win0_4.index t 0 * 1 + 1 * (x 0).val = (x 0).val; rw [e40]; omega
  | ⟨1, _⟩ => show win0_4.index t 1 * 2 + 1 * (x 1).val = (x 1).val; rw [e41]; omega

/-! ## One grid point -/

theorem hz : (![0, 0] : Fin 2 → Nat) = fun _ => 0 := funext fun a => by fin_cases a <;> rfl

/-- At a point whose first block holds rows `4000 r …` of `z` and whose other blocks are the whole arrays, the stored
    value at a block entry is the network's value at the array entry that block entry lands on. -/
theorem point_eq (z : S100000x256.Idx → EReal) (W1 : S256x256.Idx → EReal) (b1 : S1x256.Idx → EReal)
    (W2 : S256x2.Idx → EReal) (b2 : S1x2.Idx → EReal)
    (x0 : Vec Ideal S4000x256 .bf16) (x1 : Vec Ideal S256x256 .bf16) (x2 : Vec Ideal S1x256 .f32)
    (x3 : Vec Ideal S256x2 .bf16) (x4 : Vec Ideal S1x2 .f32) (r : Nat)
    (h0 : ∀ (p : Fin 4000) (j : Fin 256) (s : Fin 100000), s.val = 4000 * r + p.val → x0 (ix2 p j) = z (ix2 s j))
    (h1 : x1 = W1) (h2 : x2 = b1) (h3 : x3 = W2) (h4 : x4 = b2)
    (y : S4000x2.Idx) (i : S100000x2.Idx) (hi0 : (i 0).val = 4000 * r + (y 0).val) (hi1 : (i 1).val = (y 1).val) :
    k0_pay1 (F := Ideal) x0 x1 x2 x3 x4 y = Cert.Mlp.mlpRowBias z W1 b1 W2 b2 i := by
  obtain ⟨p, o, rfl⟩ : ∃ (p : Fin 4000) (o : Fin 2), y = ix2 p o := ⟨y 0, y 1, eq_ix2 y⟩
  obtain ⟨s, o', rfl⟩ : ∃ (s : Fin 100000) (o' : Fin 2), i = ix2 s o' := ⟨i 0, i 1, eq_ix2 i⟩
  obtain rfl : o' = o := Fin.ext hi1
  subst h1 h2 h3 h4
  have hrow : (fun j => x0 (ix2 p j)) = fun j => z (ix2 s j) := funext fun j => h0 p j s hi0
  rw [MlpBlock.pay_apply, Cert.Mlp.mlpRowBias_apply, hrow]

/-! ## What a point writes back, and the whole array -/

/-- The network over the five staged arrays. -/
abbrev staged (c : Dev nD) : S100000x2.Idx → EReal :=
  Cert.Mlp.mlpRowBias (V m c main_v19) (V m c main_v20) (V m c main_v22) (V m c main_v21) (V m c main_v23)

/-- Point `t` writes back rows `4000 t … 4000 t + 3999` of the network of the staged arrays. -/
theorem flushed_eq (c : Dev nD) (t : Fin cfg0.N) :
    (dats m 0 c).flushed 5 t = ((cfg0.win 5).blk t).view.read (Elt Ideal) (staged m c) := by
  obtain ⟨-, -, -, -, -, -, -, -, -, -, e50, e51⟩ := idx_facts t
  rw [flushed5]
  unfold out0_5
  rw [View.canon_unit_zero hz]
  simp only [View.ld_unit_zero (S := S4000x256) hz, View.ld_unit_zero (S := S256x256) hz, View.ld_unit_zero (S := S1x256) hz,
    View.ld_unit_zero (S := S256x2) hz, View.ld_unit_zero (S := S1x2) hz]
  funext y
  show k0_pay1 (iblk m c 0 t) (iblk m c 1 t) (iblk m c 2 t) (iblk m c 3 t) (iblk m c 4 t) y
    = staged m c (((cfg0.win 5).blk t).view.emb y)
  refine point_eq (V m c main_v19) (V m c main_v20) (V m c main_v22) (V m c main_v21) (V m c main_v23)
    (iblk m c 0 t) (iblk m c 1 t) (iblk m c 2 t) (iblk m c 3 t) (iblk m c 4 t) t.val
    (fun p j s hs => zblk m c t p j s hs) (wblk1 m c t) (wblk2 m c t) (wblk3 m c t) (wblk4 m c t) y _ ?_ ?_
  · show win0_5.index t 0 * 4000 + 1 * (y 0).val = 4000 * t.val + (y 0).val
    rw [e50]; omega
  · show win0_5.index t 1 * 2 + 1 * (y 1).val = (y 1).val
    rw [e51]; omega

/-- An entry of the result array is in point `t`'s block iff each coordinate is in the block's range on its axis. -/
theorem mem_blk (t : Fin cfg0.N) (i : S100000x2.Idx) :
    i ∈ ((cfg0.win 5).blk t).view.set ↔ ∀ a : Fin 2, win0_5.index t a * S4000x2.size a ≤ (i a).val ∧ (i a).val < win0_5.index t a * S4000x2.size a + S4000x2.size a := by
  show i ∈ ((View.whole main_v24).slice (win0_5.rect t)).set ↔ _
  rw [View.set_slice_whole, Rect.mem_set_unit]
  exact Iff.rfl

/-- Row `r` of the result is written at point `r / 4000`: the 25 row blocks tile the 100000 rows. -/
theorem cover (i : S100000x2.Idx) : ∃ t : Fin cfg0.N, (cfg0.win 5).flush t = true ∧ i ∈ ((cfg0.win 5).blk t).view.set := by
  have h0 : (i 0).val < 100000 := (i 0).isLt
  have h1 : (i 1).val < 2 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ =>
    show win0_5.index t 0 * 4000 ≤ (i 0).val ∧ (i 0).val < win0_5.index t 0 * 4000 + 4000
    rw [e50, ht]; omega
  | ⟨1, _⟩ =>
    show win0_5.index t 1 * 2 ≤ (i 1).val ∧ (i 1).val < win0_5.index t 1 * 2 + 2
    rw [e51]; omega

/-- So the result array ends as the network of the staged arrays. -/
theorem final (c : Dev nD) : (dats m 0 c).arrAt 5 cfg0.N = staged m c :=
  (dats m 0 c).arrAt_eq_of_cover 5 (staged m c) (fun t _ => flushed_eq m c t) cover

/-! ## In terms of the arguments -/

/-- A bias reshaped to a one-row matrix and read back along that row is the bias. -/
theorem rowBias_eq (z : S100000x256.Idx → EReal) (W1 : S256x256.Idx → EReal) (b1 : S256.Idx → EReal)
    (W2 : S256x2.Idx → EReal) (b2 : S2.Idx → EReal) :
    Cert.Mlp.mlpRowBias z W1 (shapeCast S1x256 b1 shapeCasts_S256_S1x256) W2 (shapeCast S1x2 b2 shapeCasts_S2_S1x2)
      = Cert.Mlp.mlp z W1 b1 W2 b2 := by
  funext i
  obtain ⟨s, o, rfl⟩ : ∃ (s : Fin 100000) (o : Fin 2), i = ix2 s o := ⟨i 0, i 1, eq_ix2 i⟩
  have e1 : (fun k : Fin 256 => shapeCast S1x256 b1 shapeCasts_S256_S1x256 (ix2 (0 : Fin 1) k)) = fun k => b1 (ix1 k) :=
    funext fun k => (shapeCast_addUnit_apply ![256] b1 shapeCasts_S256_S1x256 (ix2 (0 : Fin 1) k)).trans
      (congrArg b1 (funext fun a => by match a with | ⟨0, _⟩ => rfl))
  have e2 : (fun k : Fin 2 => shapeCast S1x2 b2 shapeCasts_S2_S1x2 (ix2 (0 : Fin 1) k)) = fun k => b2 (ix1 k) :=
    funext fun k => (shapeCast_addUnit_apply ![2] b2 shapeCasts_S2_S1x2 (ix2 (0 : Fin 1) k)).trans
      (congrArg b2 (funext fun a => by match a with | ⟨0, _⟩ => rfl))
  rw [Cert.Mlp.mlpRowBias_apply, Cert.Mlp.mlp_apply, e1, e2]

/-- The result array after the run: the network of the product array and the four parameter arrays. -/
abbrev result (c : Dev nD) : S100000x2.Idx → EReal :=
  Cert.Mlp.mlp (MlpPrefix.pairProd (F := Ideal) (m ((c : Thread nD τ).loc main_arg0)) (m ((c : Thread nD τ).loc main_arg2)))
    (m ((c : Thread nD τ).loc main_arg7)) (m ((c : Thread nD τ).loc main_arg8))
    (m ((c : Thread nD τ).loc main_arg9)) (m ((c : Thread nD τ).loc main_arg10))

theorem final_args (c : Dev nD) : (dats m 0 c).arrAt 5 cfg0.N = result m c := by
  rw [final]
  unfold staged
  rw [MlpPrefix.V19, MlpPrefix.V20, MlpPrefix.V21, MlpPrefix.V22, MlpPrefix.V23]
  exact rowBias_eq _ _ _ _ _

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_args m c), (h c).2⟩) (run_blocks m ρ)

end Cert.KernelIdeal.MlpValue

end
-- ==== Proof.lean ====
/-
  The certificate of a two-layer perceptron over sampled pairs of feature rows.

  Both programs form, for each of the 100000 samples `s`, the entrywise product `z s = x[i s] * x[j s]` of two rows of
  the feature table (the sample's two indices, each wrapped once by the table's height when negative, then a row gather),
  and return
      out (s, o) = ∑ k, max (∑ j, z s j * W1 (j, k) + b1 k) 0 * W2 (k, o) + b2 o.
  The reference does this on whole arrays; it also computes two message-passing layers over the edge list first, whose
  result nothing reads. The kernel forms `z` with the same host operations, then runs the two linear layers and the
  rectifier in one pipelined region over 25 blocks of 4000 rows, having re-typed `z` and the weights to a narrower float
  format, which is the identity on the extended reals.
  An output row depends on the same row of `z` alone, so the row blocking changes nothing, and each matrix product is
  the same finite sum on both sides up to re-indexing: the two results are equal on all extended reals, and the proof
  never uses that the inputs are finite.

    Proof/MlpSpec.lean       the network as a function of `z` and the parameters
    Proof/RefIsMlp.lean      the reference's last stage is that function of its product stage
    Proof/KernelBlock.lean   what the kernel body stores at one entry of a row block
    Proof/KernelPrefix.lean  the arrays the region stages, in terms of the arguments
    Proof/KernelValue.lean   block by block, the kernel's result array is that function too
-/
import proofs.«422213_j81973745811781_2_alg».proof.Defs
import proofs.«422213_j81973745811781_2_alg».proof.Proof.Gen.Kernel
import proofs.«422213_j81973745811781_2_alg».proof.Proof.Gen.Kernel.Skeleton
import proofs.«422213_j81973745811781_2_alg».proof.Proof.Gen.Kernel.Launch
import proofs.«422213_j81973745811781_2_alg».proof.Proof.Gen.Kernel.Points
import proofs.«422213_j81973745811781_2_alg».proof.Proof.Gen.Kernel.Frame
import proofs.«422213_j81973745811781_2_alg».proof.Proof.Gen.KernelIdeal
import proofs.«422213_j81973745811781_2_alg».proof.Proof.Gen.KernelIdeal.Skeleton
import proofs.«422213_j81973745811781_2_alg».proof.Proof.Gen.KernelIdeal.Launch
import proofs.«422213_j81973745811781_2_alg».proof.Proof.Gen.KernelIdeal.Points
import proofs.«422213_j81973745811781_2_alg».proof.Proof.Gen.KernelIdeal.Frame
import proofs.«422213_j81973745811781_2_alg».proof.Proof.Gen.ReferenceIdeal
import proofs.«422213_j81973745811781_2_alg».proof.Proof.Gen.Pre_finite_inputs
import proofs.«422213_j81973745811781_2_alg».proof.Proof.Gen.KernelIdeal.Value
import proofs.«422213_j81973745811781_2_alg».proof.Proof.Gen.ReferenceIdeal.Run
import proofs.«422213_j81973745811781_2_alg».proof.Proof.Gen.ReferenceIdeal.Read
import proofs.«422213_j81973745811781_2_alg».proof.Proof.MlpSpec
import proofs.«422213_j81973745811781_2_alg».proof.Proof.RefIsMlp
import proofs.«422213_j81973745811781_2_alg».proof.Proof.KernelValue
import Idealize.ShloMosaic.Adequacy
import Idealize.ShloMosaic.Init

noncomputable section

namespace Cert.Proof

open Idealize.ShloMosaic Idealize.SL.Sem

/-- The two programs build the product array by the same operations: one term, at any float instance. -/
theorem prod_eq {F : FTy → Type} [FloatOps F] (x : FVec F Cert.KernelIdeal.S50000x256 .f32) (s : IVec Cert.KernelIdeal.S100000x2 32) :
    Cert.KernelIdeal.MlpPrefix.pairProd (F := F) x s = Cert.ReferenceIdeal.Read.val_main_v52 (F := F) x s := rfl

/-- The three programs run, and leave their arguments as they found them: the kernels by their pipelines' frame
    runs, the reference by its run read back. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on the arguments, the kernel's result array (the network of its product array, block by
    block) and the reference's (its last stage) are the same function of the same arrays. -/
theorem algebraic : Cert.algebraic_KernelIdeal_ReferenceIdeal := by
  intro m ρ m' ρ' _ hagree
  refine ⟨fun c => Cert.KernelIdeal.MlpValue.result m c, Cert.KernelIdeal.MlpValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, -, -, -, -, a7, a8, a9, a10⟩ := hagree c
  rw [Cert.ReferenceIdeal.Read.val_main_v61_eq, Cert.ReferenceIdeal.RefValue.result_eq, a0, a2, a7, a8, a9, a10,
    ← prod_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
